-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S_ : Shape := ⟨0, ![]⟩
abbrev S16384x1 : Shape := ⟨2, ![16384, 1]⟩
abbrev S1024x128 : Shape := ⟨2, ![1024, 128]⟩
abbrev S2048x128 : Shape := ⟨2, ![2048, 128]⟩
abbrev S1024x1 : Shape := ⟨2, ![1024, 1]⟩
abbrev S128x2048 : Shape := ⟨2, ![128, 2048]⟩
abbrev S1024x2048 : Shape := ⟨2, ![1024, 2048]⟩
abbrev S1024 : Shape := ⟨1, ![1024]⟩
abbrev S16384 : Shape := ⟨1, ![16384]⟩

abbrev nBuf : Space → Nat
  | .hbm => 11
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S_, .f32⟩
  | .hbm, ⟨2, _⟩ => ⟨S16384x128, .f32⟩
  | .hbm, ⟨3, _⟩ => ⟨S16384x128, .f32⟩
  | .hbm, ⟨4, _⟩ => ⟨S16384x128, .bf16⟩
  | .hbm, ⟨5, _⟩ => ⟨S16384x1, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384x128 : S_.BroadcastsInDim S16384x128 (![] : Fin 0 → Fin S16384x128.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  reduces_S1024x2048_S1024 : S1024x2048.Reduces [1] S1024
  shapeCasts_S1024_S1024x1 : S1024.ShapeCasts S1024x1
  shapeCasts_S16384x1_S16384 : S16384x1.ShapeCasts S16384
  reducesTo_S16384_S_d0 : S16384.ReducesTo [0] S_
  h_S_ : 0 < S_.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .bf16 = 32 ∨ (Rect.block (s := S16384x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S128x16384 : Shape := ⟨2, ![128, 16384]⟩
abbrev S16384x16384 : Shape := ⟨2, ![16384, 16384]⟩
abbrev S16384 : Shape := ⟨1, ![16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S_, .f32⟩
  | .hbm, ⟨2, _⟩ => ⟨S16384x128, .f32⟩
  | .hbm, ⟨3, _⟩ => ⟨S16384x128, .f32⟩
  | .hbm, ⟨4, _⟩ => ⟨S128x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  transposes_S16384x128_S128x16384_1_0 : S16384x128.Transposes [1, 0] S128x16384
  reducesTo_S16384x16384_S16384_d1 : S16384x16384.ReducesTo [1] S16384
  h_S_ : 0 < S_.numel
  bcast_S_S16384 : S_.BroadcastsInDim S16384 (![] : Fin 0 → Fin S16384.rank)
  reducesTo_S16384_S_d0 : S16384.ReducesTo [0] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.KISetup.lean ====
/-
  The similarity kernel's pipeline, shared definitions. The grid is 16 row tiles by 8 column tiles, walked row tile
  first: point t is row tile t / 8 and column tile t % 8. Window 0 stages the row tile's 1024 rows of the scaled
  input, window 1 the column tile's 2048 rows of the SAME array, window 2 is the 1024 per-row results, written
  back after the row tile's last column tile. A scratch column carries the running sum of exponentials: reset at
  column tile 0, added to at every column tile, read out at column tile 7.
-/
import proofs.«105379_j28956669510249_1_alg».proof.Proof.Gen.KernelIdeal.Launch
import proofs.«105379_j28956669510249_1_alg».proof.Proof.Gen.KernelIdeal.Skeleton
import proofs.«105379_j28956669510249_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays around the region -/

/-- Core c's buffers at launch, as a valuation; -/
abbrev V₀ (c : Dev nD) : Valuation τ sig (Elt F) := fun b => m (c, b)
/-- after the four host operations before the region (the scaling by the temperature and the change of format); -/
abbrev V1 (c : Dev nD) : Valuation τ sig (Elt F) := StableHlo.after hostOps0 (V₀ m c)
/-- the same read at a TensorCore reference. -/
abbrev V (c : Dev nD) (b : Ref sig .tc) : Buf (Elt F) ((c : Thread nD τ).loc b) := V1 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, in closed form over the grid -/

/-- "this is the row tile's first column tile" as the body computes it; -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- "this is its last column tile". -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle, and where the result is written back -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
theorem live2 : ∀ t : Fin cfg0.N, condLast (grid0.coords t) → cfg0.idle 2 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The scratch column that carries the running sum. -/
abbrev scM : Memref sig .tc .vmem S1024x1 .f32 := Memref.whole cc0_scratch0

/-- The scoped buffers no window stages are the scratch column, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KIBody.lean ====
/-
  The kernel body as three Hoare triples, one per position of a point in its row tile: the first column tile (the
  running sum is reset, then this tile's row sums of exponentials are added), a middle one (added to what the point
  before left), the last one (added, then the result column  0 - log(sum * 2^-14)  is stored into the result window).
  Each triple names what the scratch column and the result window hold afterwards through the payload functions.
-/
import proofs.«105379_j28956669510249_1_alg».proof.Proof.KISetup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body's loads read and its stores leave, buffer by buffer -/

/-- The zero offsets of a rank-2 whole-buffer rectangle, as a constant function. -/
private theorem zeros2 : (![0, 0] : Fin 2 → Nat) = fun _ => 0 := funext fun a => by fin_cases a <;> rfl

/-- A column buffer after stores of which the LAST is through the whole-column rectangle reads that store's payload,
    whatever the view, the contents before and the earlier stores. -/
private theorem read_last_store {sg : RefSig} {κ : Kind} {sp : Space} (v : View sg κ sp S1024x1 .f32) (f : v.ty.Contents (Elt F))
    (w : Vec F S1024x1 .f32) (L : List (View.Piece (Elt F) S1024x1 .f32)) :
    v.read (Elt F) (v.writes (Elt F) f (⟨Rect.unit ![0, 0] S1024x1.size inb_S1024x1_S1024x1_0_0, w⟩ :: L)) = w := by
  have hcov : ∀ y : S1024x1.Idx, ∃ p ∈ ((⟨Rect.unit ![0, 0] S1024x1.size inb_S1024x1_S1024x1_0_0, w⟩ : View.Piece (Elt F) S1024x1 .f32) :: L),
      y ∈ p.1.set :=
    fun y => ⟨⟨Rect.unit ![0, 0] S1024x1.size inb_S1024x1_S1024x1_0_0, w⟩, List.mem_cons_self,
      View.mem_set_unit_zero zeros2 inb_S1024x1_S1024x1_0_0 y⟩
  exact (View.read_writes_eq_canon v f _ hcov).trans (View.canon_cons_unit_zero zeros2 inb_S1024x1_S1024x1_0_0 w L)

/-- A load through the whole-column rectangle right after one store through it reads that store's payload. -/
private theorem load_after_store {sg : RefSig} {κ : Kind} {sp : Space} (v : View sg κ sp S1024x1 .f32) (w : Vec F S1024x1 .f32) :
    v.readCov [(⟨Rect.unit ![0, 0] S1024x1.size inb_S1024x1_S1024x1_0_0, w⟩ : View.Piece (Elt F) S1024x1 .f32)]
      (Rect.unit ![0, 0] S1024x1.size inb_S1024x1_S1024x1_0_0).toLoadRect = w :=
  View.readCov_unit_zero v zeros2 inb_S1024x1_S1024x1_0_0 w

/-- A whole memref at contents that read `X`, loaded through its whole rectangle, reads `X`: the three shapes of the body. -/
private theorem load_x0 (m : Memref sig .tc .vmem S1024x128 .bf16) (h : m.IsWhole) (X : Vec F S1024x128 .bf16) :
    View.readAt (Elt F) m.view (Rect.unit ![0, 0] S1024x128.size inb_S1024x128_S1024x128_0_0).toLoadRect (h.unread X) = X := by
  rw [View.readAt_eq_ld, h.read_unread]; exact View.ld_unit_zero zeros2 _ X
private theorem load_x1 (m : Memref sig .tc .vmem S2048x128 .bf16) (h : m.IsWhole) (X : Vec F S2048x128 .bf16) :
    View.readAt (Elt F) m.view (Rect.unit ![0, 0] S2048x128.size inb_S2048x128_S2048x128_0_0).toLoadRect (h.unread X) = X := by
  rw [View.readAt_eq_ld, h.read_unread]; exact View.ld_unit_zero zeros2 _ X
private theorem load_col (m : Memref sig .tc .vmem S1024x1 .f32) (h : m.IsWhole) (X : Vec F S1024x1 .f32) :
    View.readAt (Elt F) m.view (Rect.unit ![0, 0] S1024x1.size inb_S1024x1_S1024x1_0_0).toLoadRect (h.unread X) = X := by
  rw [View.readAt_eq_ld, h.read_unread]; exact View.ld_unit_zero zeros2 _ X

/-- FIRST column tile of a row tile (and not the last): from the inputs' staging buffers at `x0`, `x1`, the result
    window at `xo` (idle here: handed back untouched) and the scratch at anything, the body runs to the scratch at this
    tile's sums over a zero column. -/
theorem run_first (c : Dev nD) (i : grid0.Coords) (arg2 : Memref sig .tc .vmem S1024x128 .bf16) (harg2 : arg2.IsWhole)
    (arg3 : Memref sig .tc .vmem S2048x128 .bf16) (harg3 : arg3.IsWhole) (arg4 : Memref sig .tc .vmem S1024x1 .f32) (harg4 : arg4.IsWhole)
    (arg5 : Memref sig .tc .vmem S1024x1 .f32) (harg5 : arg5.IsWhole) (hc0 : condFirst i) (hc1 : ¬condLast i)
    (x0 : Vec F S1024x128 .bf16) (x1 : Vec F S2048x128 .bf16) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x0 x1 (k0_pay1 (F := F)))) -∗ K ⟨⟩))
      ⊢ wp frame (wpE (defs₀ (F := F)) Variants.none c none) E (cc0_kernel i arg2 harg2 arg3 harg3 arg4 harg4 arg5 harg5) K := by
  -- the printed body is its skeleton of memory operations over the payloads; the whole memrefs' raw contents are named
  -- from what they read, and the body is run operation by operation, each conditional decided by the position
  simp only [cc0_kernel_eq_skeleton]; unfold cc0_kernel_skel
  unfold owns
  iintro ⟨⟨%f0, %hf0, H0⟩, ⟨%f1, %hf1, H1⟩, ⟨%fo, %hfo, Ho⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact hfo
    iexact Ho
  iexists _; isplitr
  swap; · iexact HS
  ipureintro
  -- the scratch after the reset and the update: the update's store is the later one and covers the column; the sums it
  -- was added to are what the load right after the reset's store read, the zero column
  refine (read_last_store _ _ _ _).trans ?_
  sl_unfold_words
  rw [load_after_store, load_x0, load_x1]

/-- A MIDDLE column tile: the scratch at `s` goes to this tile's sums added to `s`. -/
theorem run_mid (c : Dev nD) (i : grid0.Coords) (arg2 : Memref sig .tc .vmem S1024x128 .bf16) (harg2 : arg2.IsWhole)
    (arg3 : Memref sig .tc .vmem S2048x128 .bf16) (harg3 : arg3.IsWhole) (arg4 : Memref sig .tc .vmem S1024x1 .f32) (harg4 : arg4.IsWhole)
    (arg5 : Memref sig .tc .vmem S1024x1 .f32) (harg5 : arg5.IsWhole) (hc0 : ¬condFirst i) (hc1 : ¬condLast i)
    (x0 : Vec F S1024x128 .bf16) (x1 : Vec F S2048x128 .bf16) (xo : Vec F S1024x1 .f32) (s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x0 x1 s)) -∗ K ⟨⟩))
      ⊢ wp frame (wpE (defs₀ (F := F)) Variants.none c none) E (cc0_kernel i arg2 harg2 arg3 harg3 arg4 harg4 arg5 harg5) K := by
  -- the printed body is its skeleton of memory operations over the payloads; the whole memrefs' raw contents are named
  -- from what they read, and the body is run operation by operation, each conditional decided by the position
  simp only [cc0_kernel_eq_skeleton]; unfold cc0_kernel_skel
  unfold owns
  iintro ⟨⟨%f0, %hf0, H0⟩, ⟨%f1, %hf1, H1⟩, ⟨%fo, %hfo, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; · ipureintro; exact hfo
    iexact Ho
  iexists _; isplitr
  swap; · iexact HS
  ipureintro
  -- the scratch after the update's one covering store, its three loads read at the contents handed in
  refine (read_last_store _ _ _ _).trans ?_
  rw [load_x0, load_x1, load_col]

/-- The LAST column tile: the scratch at `s` goes to the finished sums `k0_pay2 x0 x1 s`, and the result window, at
    anything before, holds the result column of those sums. -/
theorem run_last (c : Dev nD) (i : grid0.Coords) (arg2 : Memref sig .tc .vmem S1024x128 .bf16) (harg2 : arg2.IsWhole)
    (arg3 : Memref sig .tc .vmem S2048x128 .bf16) (harg3 : arg3.IsWhole) (arg4 : Memref sig .tc .vmem S1024x1 .f32) (harg4 : arg4.IsWhole)
    (arg5 : Memref sig .tc .vmem S1024x1 .f32) (harg5 : arg5.IsWhole) (hc0 : ¬condFirst i) (hc1 : condLast i)
    (x0 : Vec F S1024x128 .bf16) (x1 : Vec F S2048x128 .bf16) (s : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0_kernel i arg2 harg2 arg3 harg3 arg4 harg4 arg5 harg5) K := by
  -- the printed body is its skeleton of memory operations over the payloads; the whole memrefs' raw contents are named
  -- from what they read, and the body is run operation by operation, each conditional decided by the position
  simp only [cc0_kernel_eq_skeleton]; unfold cc0_kernel_skel
  unfold owns
  iintro ⟨⟨%f0, %hf0, H0⟩, ⟨%f1, %hf1, H1⟩, ⟨%dout, %fo, -, Ho⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr
    swap; · iexact Ho
    ipureintro
    -- the result window after its one covering store: the result column of the sums the load right after the
    -- update's store read back from the scratch
    refine (read_last_store _ _ _ _).trans ?_
    sl_unfold_words
    rw [load_after_store, load_x0, load_x1, load_col]
  iexists _; isplitr
  swap; · iexact HS
  ipureintro
  -- the scratch after the update's one covering store
  sl_unfold_words
  refine (read_last_store _ _ _ _).trans ?_
  rw [load_x0, load_x1, load_col]

end Cert.KernelIdeal.Hand

end
-- ==== Proof.KIDats.lean ====
/-
  The pipeline's proof data. The scratch column after point t is defined by recursion on the point: at a row tile's
  first column tile it is that tile's row sums of exponentials over a zero column, at every other point that tile's
  sums added to what the point before left. The input windows' buffers hold their blocks at every point; the result
  window's buffer, at the last column tile of a row tile, the result column of the finished sums. Between points the
  invariant is the scratch column at the running sum.
-/
import proofs.«105379_j28956669510249_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUNNING SUM: the scratch column after the body at point `n`. -/
def accAt (c : Dev nD) : (n : ℕ) → n < cfg0.N → Vec F S1024x1 .f32
  | 0, hn => k0_pay2 (iblk m c 0 ⟨0, hn⟩) (iblk m c 1 ⟨0, hn⟩) (k0_pay1 (F := F))
  | n + 1, hn =>
    if (n + 1) % 8 = 0 then k0_pay2 (iblk m c 0 ⟨n + 1, hn⟩) (iblk m c 1 ⟨n + 1, hn⟩) (k0_pay1 (F := F))
    else k0_pay2 (iblk m c 0 ⟨n + 1, hn⟩) (iblk m c 1 ⟨n + 1, hn⟩) (accAt c n (Nat.lt_of_succ_lt hn))

/-- At a row tile's first column tile the sum starts over. -/
theorem accAt_first (c : Dev nD) (t : Fin cfg0.N) (h : t.val % 8 = 0) :
    accAt m c t.val t.isLt = k0_pay2 (iblk m c 0 t) (iblk m c 1 t) (k0_pay1 (F := F)) := by
  obtain ⟨n, hn⟩ := t
  cases n with
  | zero => rfl
  | succ n => exact (if_pos h).trans rfl

/-- At every other point it adds to what the point before left. -/
theorem accAt_next (c : Dev nD) (t : Fin cfg0.N) (h : ¬t.val % 8 = 0) :
    accAt m c t.val t.isLt = k0_pay2 (iblk m c 0 t) (iblk m c 1 t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before position `n`: before the first point the scratch column at anything, afterwards at the
    running sum the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The proof data of the one pipeline on core `c`. The two input windows read ONE array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (accAt m c t.val t.isLt)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (accAt m c t.val t.isLt) := by dsimp only [dats]
theorem q0 (c : Dev nD) : (dats m 0 c).q 0 = fullShare.left := by dsimp only [dats]
theorem q1 (c : Dev nD) : (dats m 0 c).q 1 = fullShare.right := by dsimp only [dats]
theorem Phi_castSucc (c : Dev nD) (t : Fin cfg0.N) : (dats m 0 c).Φ t.castSucc = PhiS m c t.val (Nat.le_of_lt t.isLt) := by
  dsimp only [dats]; simp only [Fin.coe_castSucc]
theorem Phi_succ (c : Dev nD) (t : Fin cfg0.N) : (dats m 0 c).Φ t.succ = owns (c : Thread nD τ) scM fullShare (accAt m c t.val t.isLt) := rfl
theorem Phi_zero (c : Dev nD) : (dats m 0 c).Φ 0 = Pipeline.scopedRest spec0 c := rfl
theorem Phi_last (c : Dev nD) : (dats m 0 c).Φ (Fin.last cfg0.N)
    = owns (c : Thread nD τ) scM fullShare (accAt m c (cfg0.N - 1) (by have : cfg0.N = 128 := N_0; omega)) := by
  rw [show (dats m 0 c).Φ (Fin.last cfg0.N) = PhiS m c (Fin.last cfg0.N).val (Nat.le_of_lt_succ (Fin.last cfg0.N).isLt) from rfl]
  exact PhiS_pos m c _ _ (by rw [Fin.val_last]; have : cfg0.N = 128 := N_0; omega)

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- What the body is called with at point `t`: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The input windows are never idle: the body leaves their blocks in place. -/
theorem leaves0 (c : Dev nD) (t : Fin cfg0.N) :
    (dats m 0 c).leavesExact 0 t = owns (c : Thread nD τ) (ms0 t) fullShare (iblk m c 0 t) := by
  rw [← after0]
theorem leaves1 (c : Dev nD) (t : Fin cfg0.N) :
    (dats m 0 c).leavesExact 1 t = owns (c : Thread nD τ) (ms1 t) fullShare (iblk m c 1 t) := by
  rw [← after1]
/-- The result window at a row tile's last column tile holds the result column of the finished sums. -/
theorem leaves2_last (c : Dev nD) (t : Fin cfg0.N) (h : condLast (grid0.coords t)) :
    (dats m 0 c).leavesExact 2 t = owns (c : Thread nD τ) (ms2 t) fullShare (k0_pay3 (accAt m c t.val t.isLt)) := by
  rw [← after2]; unfold Dat.leavesExact; rw [live2 t h]

set_option maxHeartbeats 4800000 in
/-- The body at any point, by the position of the point in its row tile. At the first column tile the scratch column
    is at anything (the very first point) or at the sums of the row tile before (afterwards), and the run resets it;
    at a middle one the run adds to what the point before left; at the last one it also stores the result column.
    The result window is handed back untouched except at the last column tile; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [Phi_succ, leaves0, leaves1, Phi_castSucc]
  have hN : t.val < 128 := lt_of_lt_of_eq t.isLt (show cfg0.N = 128 from N_0)
  by_cases h0 : t.val % 8 = 0
  · have hc0 : condFirst (grid0.coords t) := (hcondFirst t).mpr h0
    have hc1 : ¬condLast (grid0.coords t) := fun h => by have := (hcondLast t).mp h; omega
    rw [Dat.leavesExact_idle (dats m 0 c) 2 t (idle2 t hc1) (noFlush2 t hc1), accAt_first m c t h0]
    by_cases hz : t.val = 0
    · rw [PhiS_zero m c _ _ hz, scopedRest_scM]
      iintro ⟨HS, Ho, ⟨%d0, H0⟩, ⟨%d1, H1⟩, ⟨%d2, H2⟩⟩
      iapply (run_first c (grid0.coords t) _ _ _ _ _ _ _ _ hc0 hc1 (iblk m c 0 t) (iblk m c 1 t) _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2
    · rw [PhiS_pos m c _ _ hz]
      iintro ⟨HS, Ho, ⟨%d0, H0⟩, ⟨%d1, H1⟩, ⟨%d2, H2⟩⟩
      iapply (run_first c (grid0.coords t) _ _ _ _ _ _ _ _ hc0 hc1 (iblk m c 0 t) (iblk m c 1 t) _ Set.univ _)
      isplitl [H0]; · iexact H0
      isplitl [H1]; · iexact H1
      isplitl [H2]; · iexact H2
      isplitl [HS]; · iexists _; iexact HS
      iintro ⟨H0, H1, H2, HS⟩
      isplitl [HS]; · iexact HS
      isplitl [Ho]; · iexact Ho
      isplitl [H0]; · iexact H0
      isplitl [H1]; · iexact H1
      iexists _; iexact H2
  · have hc0 : ¬condFirst (grid0.coords t) := fun h => h0 ((hcondFirst t).mp h)
    have hz : t.val ≠ 0 := fun e => h0 (by rw [e])
    rw [PhiS_pos m c _ _ hz, accAt_next m c t h0]
    by_cases h1 : t.val % 8 = 7
    · have hc1 : condLast (grid0.coords t) := (hcondLast t).mpr h1
      rw [leaves2_last m c t hc1, accAt_next m c t h0]
      iintro ⟨HS, Ho, ⟨%d0, H0⟩, ⟨%d1, H1⟩, ⟨%d2, H2⟩⟩
      iapply (run_last c (grid0.coords t) _ _ _ _ _ _ _ _ hc0 hc1 (iblk m c 0 t) (iblk m c 1 t) _ Set.univ _)
      isplitl [H0]; · iexact H0
      isplitl [H1]; · iexact H1
      isplitl [H2]; · iexists _; iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have hc1 : ¬condLast (grid0.coords t) := fun h => h1 ((hcondLast t).mp h)
      rw [Dat.leavesExact_idle (dats m 0 c) 2 t (idle2 t hc1) (noFlush2 t hc1)]
      iintro ⟨HS, Ho, ⟨%d0, H0⟩, ⟨%d1, H1⟩, ⟨%d2, H2⟩⟩
      iapply (run_mid c (grid0.coords t) _ _ _ _ _ _ _ _ hc0 hc1 (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- THE BODY OBLIGATION at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LossSpec.lean ====
/-
  What both programs compute, as plain functions of the input array z : [16384, 128] on the extended reals.
  Rows are scaled by the temperature, zs r k = z r k / T. The similarity of rows r and c is the dot product
  sim r c = sum over k of zs r k * zs c k. Row r's loss is  - log ((sum over c of exp (sim r c)) / 16384), and the
  result is the mean of the 16384 losses. The kernel walks the columns in 8 tiles of 2048, adding each tile's sum of
  exponentials to a running sum, multiplies by 2^-14 where the reference divides by 16384, and takes 0 - log where the
  reference negates: the same number, because addition of extended reals is commutative and associative, a division by
  the real 16384 is the product with its inverse, and 0 - x = -x.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The input array, index by index. -/
abbrev Z : Type := (⟨2, ![16384, 128]⟩ : Shape).Idx → EReal

/-- A row scaled by the temperature (the word is the float nearest 0.1; both programs divide by the same word). -/
def zs (z : Z) (r : Fin 16384) (k : Fin 128) : EReal := Ideal.div (z (ix2 r k)) (Ideal.ofBits .f32 0x3DCCCCCD#32)

/-- The similarity of two rows. -/
def sim (z : Z) (r c : Fin 16384) : EReal := ∑ k : Fin 128, zs z r k * zs z c k

/-- Row r's sum of exponentials over all columns. -/
def rowSum (z : Z) (r : Fin 16384) : EReal := ∑ c : Fin 16384, Ideal.exp (sim z r c)

/-- THE REFERENCE's value: the mean over rows of  - log (rowSum / 16384), each sum started from the zero word. -/
def G (z : Z) : EReal :=
  Ideal.div (Ideal.ofBits .f32 0x00000000#32 + ∑ r : Fin 16384,
      -(Ideal.log (Ideal.div (Ideal.ofBits .f32 0x00000000#32 + rowSum z r) (Ideal.ofBits .f32 0x46800000#32))))
    (Ideal.ofBits .f32 0x46800000#32)

/-- Column tile j's share of row r's sum: the 2048 columns 2048 j .. 2048 j + 2047. -/
def tileSum (z : Z) (r : Fin 16384) (j : Fin 8) : EReal :=
  ∑ q : Fin 2048, Ideal.exp (sim z r ⟨2048 * j.val + q.val, by have := j.isLt; have := q.isLt; omega⟩)

/-- The kernel's running sum for row r after column tiles 0 .. j: the zero word plus tile 0's share, then one share
    added per tile. (Past the eighth tile the definition repeats tile 7: never consulted.) -/
def accK (z : Z) (r : Fin 16384) : ℕ → EReal
  | 0 => Ideal.ofBits .f32 0x00000000#32 + tileSum z r 0
  | j + 1 => accK z r j + tileSum z r ⟨min (j + 1) 7, by omega⟩

/-- THE KERNEL's value: the mean over rows of  0 - log (accK 7 * 2^-14). -/
def Gk (z : Z) : EReal :=
  Ideal.div (Ideal.ofBits .f32 0x00000000#32 + ∑ r : Fin 16384,
      (Ideal.ofBits .f32 0x00000000#32 - Ideal.log (accK z r 7 * Ideal.ofBits .f32 0x38800000#32)))
    (Ideal.ofBits .f32 0x46800000#32)

/-- The word of the column count denotes the real 16384 = 2^14. -/
theorem ofBits_16384 : Ideal.ofBits .f32 0x46800000#32 = ((16384 : ℝ) : EReal) := by
  simp [Ideal.ofBits, Ideal.ieee, -EReal.coe_mul]; norm_num

/-- The kernel's scaling word denotes the real 2^-14 = 1 / 16384. -/
theorem ofBits_inv_16384 : Ideal.ofBits .f32 0x38800000#32 = ((1 / 16384 : ℝ) : EReal) := by
  simp [Ideal.ofBits, Ideal.ieee, -EReal.coe_mul]; norm_num

/-- Multiplying by 2^-14 is dividing by 16384, for every extended real (the infinities included). -/
theorem mul_inv_word (x : EReal) :
    x * Ideal.ofBits .f32 0x38800000#32 = Ideal.div x (Ideal.ofBits .f32 0x46800000#32) := by
  rw [ofBits_16384, ofBits_inv_16384, Ideal.div_coe (by norm_num)]

/-- A sum over the 16384 columns is the sum over the 8 tiles of the sums over each tile's 2048 columns:
    column 2048 j + q is the pair (j, q), and a sum over pairs is an iterated sum. -/
theorem sum_tiles (f : Fin 16384 → EReal) :
    ∑ c : Fin 16384, f c
      = ∑ j : Fin 8, ∑ q : Fin 2048,
          f ⟨2048 * j.val + q.val, by have := j.isLt; have := q.isLt; omega⟩ := by
  have h := Equiv.sum_comp (finProdFinEquiv : Fin 8 × Fin 2048 ≃ Fin (8 * 2048)) f
  rw [Fintype.sum_prod_type] at h
  rw [← h]
  refine Finset.sum_congr rfl fun j _ => Finset.sum_congr rfl fun q _ => ?_
  congr 1
  apply Fin.ext
  simp [finProdFinEquiv, Nat.add_comm]

/-- Row r's sum of exponentials, tile by tile. -/
theorem rowSum_tiles (z : Z) (r : Fin 16384) : rowSum z r = ∑ j : Fin 8, tileSum z r j :=
  sum_tiles fun c => Ideal.exp (sim z r c)

/-- After the eighth tile the running sum is the whole row's sum: the zero word is 0, and the eight shares were
    added in order. -/
theorem accK_seven (z : Z) (r : Fin 16384) : accK z r 7 = rowSum z r := by
  rw [rowSum_tiles, Fin.sum_univ_eight]
  simp only [accK, Ideal.ofBits_zero_f32, zero_add]
  rfl

/-- The two are one number. -/
theorem Gk_eq_G (z : Z) : Gk z = G z := by
  have h : ∀ r : Fin 16384,
      Ideal.ofBits .f32 0x00000000#32 - Ideal.log (accK z r 7 * Ideal.ofBits .f32 0x38800000#32)
        = -(Ideal.log (Ideal.div (Ideal.ofBits .f32 0x00000000#32 + rowSum z r)
            (Ideal.ofBits .f32 0x46800000#32))) := by
    intro r
    rw [Ideal.ofBits_zero_f32, zero_sub, zero_add, accK_seven, mul_inv_word]
  simp only [Gk, G, h]

end Cert.Loss

end
-- ==== Proof.KIPay.lean ====
/-
  The body's three payloads read at an index on the extended reals, and the two input blocks read where the grid point
  puts them in the scaled input: the row tile's block holds rows 1024 (t / 8) .. of it, the column tile's block rows
  2048 (t % 8) .. of it.
-/
import proofs.«105379_j28956669510249_1_alg».proof.Proof.KIDats
import proofs.«105379_j28956669510249_1_alg».proof.Proof.LossSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The reset column is zero (the zero word). -/
theorem pay1_apply (y : S1024x1.Idx) : k0_pay1 (F := Ideal) y = Ideal.ofBits .f32 0x00000000#32 := by
  unfold k0_pay1
  rw [shapeCast_self]
  rfl

/-! ## The second payload's operations read at an index -/

/-- A column cast [1024] → [1024, 1] reads row p of the operand at (p, 0). -/
theorem colCast_apply {α : Type} (v : S1024.Idx → α) (h : S1024.ShapeCasts S1024x1) (p : Fin 1024) :
    shapeCast S1024x1 v h (ix2 p 0) = v (ix1 p) :=
  shapeCast_apply v h (ix2 p 0) (ix1 p) (by
    rw [Shape.rowMajor_val_one, Shape.rowMajor_val_two]
    show p.val = p.val * 1 + 0
    omega)

/-- The lane sum of a [1024, 2048] array at row p is the sum of the row's 2048 entries. -/
theorem laneSum_apply (v : FVec Ideal S1024x2048 .f32) (h : S1024x2048.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 2048, v (ix2 p q) := by
  refine (Ideal.multiReduction_add_single v 0x00000000#32 h hφ hacc (ix1 p)).trans ?_
  refine Finset.sum_congr rfl fun q _ => congrArg v ?_
  exact funext fun a => Fin.ext (by match a with | ⟨0, _⟩ => rfl | ⟨1, _⟩ => rfl)

/-- The transpose of a [2048, 128] array reads (k, q) at (q, k). -/
theorem transp_apply {α : Type} (x : S2048x128.Idx → α) (h : S2048x128.Transposes [1, 0] S128x2048) (k : Fin 128) (q : Fin 2048) :
    transpose S128x2048 [1, 0] x h (ix2 k q) = x (ix2 q k) :=
  transpose_apply [1, 0] x h (ix2 k q) (ix2 q k) (fun b => match b with
    | ⟨0, _⟩ => rfl
    | ⟨1, _⟩ => rfl)

/-- The product's operand indices at output index i and shared coordinate q, axis by axis: (i 0, q) on the left,
    (q, i 1) on the right. -/
theorem lhs_dot_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhs_dot_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs_dot_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs_dot_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- The product of a [1024, 128] and a [128, 2048] array into the zero array, at (p, q): the sum over the 128 shared
    coordinates. -/
theorem matmul_apply_pq (a : FVec Ideal S1024x128 .bf16) (b : FVec Ideal S128x2048 .bf16) (p : Fin 1024) (q : Fin 2048) :
    matmul (F := Ideal) dot_S1024x128_S128x2048_S1024x2048_1_0_0_1_n_n none a b (constant S1024x2048 .f32 0x00000000#32) (ix2 p q)
      = ∑ k : Fin 128, a (ix2 p k) * b (ix2 k q) := by
  refine (Ideal.matmul_constant_zero_apply dot_S1024x128_S128x2048_S1024x2048_1_0_0_1_n_n none a b (ix2 p q)).trans ?_
  rw [← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 p q) ((ValueIdx.contrEquiv1 dot_S1024x128_S128x2048_S1024x2048_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S128x2048_S1024x2048_1_0_0_1_n_n.rhsIdx (ix2 p q) ((ValueIdx.contrEquiv1 dot_S1024x128_S128x2048_S1024x2048_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- One column tile's contribution: row p's entry grows by the sum over the tile's 2048 columns q of the exponential of
    the dot product of row p of the first block with row q of the second. -/
theorem pay2_apply (x0 : Vec Ideal S1024x128 .bf16) (x1 : Vec Ideal S2048x128 .bf16) (s : Vec Ideal S1024x1 .f32) (p : Fin 1024) :
    k0_pay2 (F := Ideal) x0 x1 s (ix2 p 0) = s (ix2 p 0) + ∑ q : Fin 2048, Ideal.exp (∑ k : Fin 128, x0 (ix2 p k) * x1 (ix2 q k)) := by
  unfold k0_pay2
  simp only [shapeCast_self]
  refine congrArg (s (ix2 p 0) + ·) ?_
  refine (colCast_apply _ _ p).trans ?_
  refine (laneSum_apply _ _ _ _ p).trans ?_
  refine Finset.sum_congr rfl fun q _ => congrArg Ideal.exp ?_
  refine (matmul_apply_pq _ _ p q).trans ?_
  refine Finset.sum_congr rfl fun k _ => congrArg (x0 (ix2 p k) * ·) ?_
  exact transp_apply x1 _ k q

/-- The result column: 0 - log (sum * 2^-14). -/
theorem pay3_apply (s : Vec Ideal S1024x1 .f32) (p : Fin 1024) :
    k0_pay3 (F := Ideal) s (ix2 p 0) = Ideal.ofBits .f32 0x00000000#32 - Ideal.log (s (ix2 p 0) * Ideal.ofBits .f32 0x38800000#32) := by
  unfold k0_pay3
  rfl

/-- The array both input windows read is the launch input divided by the temperature, entry by entry (the change of
    format after the division is the identity on the extended reals). -/
theorem scaled_apply (c : Dev nD) (r : Fin 16384) (k : Fin 128) :
    V m c main_v2 (ix2 r k) = Cert.Loss.zs (m ((c.tc : Thread nD τ).loc main_arg0)) r k := by
  show StableHlo.after hostOps0 (V₀ m c) (Proc.devRef .tc main_v2) (ix2 r k) = _
  after_results
  unfold Cert.Loss.zs
  show Ideal.div (m ((c.tc : Thread nD τ).loc main_arg0) (ix2 r k))
      (broadcastInDim S16384x128 ![] bcast_S_S16384x128 (constant (F := Ideal) S_ .f32 0x3DCCCCCD#32) (ix2 r k)) = _
  refine congrArg (Ideal.div _ ·) ?_
  exact broadcastInDim_apply _ _ _ (ix2 r k) ix0 (fun a => a.elim0)

/-- The printed index maps, decided once over the grid: at point t the row tile's block index is (t / 8, 0) and the
    column tile's (t % 8, 0). -/
theorem idx_rows : ∀ t : Fin cfg0.N, win0_0.index t (0 : Fin 2) = t.val / 8 ∧ win0_0.index t (1 : Fin 2) = 0 :=
  (by decide +kernel : ∀ t : Fin grid0.N, _)
theorem idx_cols : ∀ t : Fin cfg0.N, win0_1.index t (0 : Fin 2) = t.val % 8 ∧ win0_1.index t (1 : Fin 2) = 0 :=
  (by decide +kernel : ∀ t : Fin grid0.N, _)

/-- The row tile's block at point t: rows 1024 (t / 8) + p of the scaled input. -/
theorem iblk0_apply (c : Dev nD) (t : Fin cfg0.N) (p : Fin 1024) (k : Fin 128) :
    iblk m c 0 t (ix2 p k) = Cert.Loss.zs (m ((c.tc : Thread nD τ).loc main_arg0))
      ⟨1024 * (t.val / 8) + p.val, by have := t.isLt; have : cfg0.N = 128 := N_0; have := p.isLt; omega⟩ k := by
  rw [← scaled_apply]
  show V m c main_v2 (((cfg0.win 0).blk t).view.emb (ix2 p k)) = V m c main_v2 _
  obtain ⟨e0, e1⟩ := idx_rows t
  refine congrArg (V m c main_v2) (funext fun a => Fin.ext ?_)
  match a with
  | ⟨0, _⟩ => show win0_0.index t (0 : Fin 2) * 1024 + 1 * p.val = 1024 * (t.val / 8) + p.val; omega
  | ⟨1, _⟩ => show win0_0.index t (1 : Fin 2) * 128 + 1 * k.val = k.val; omega

/-- The column tile's block at point t: rows 2048 (t % 8) + q of the scaled input. -/
theorem iblk1_apply (c : Dev nD) (t : Fin cfg0.N) (q : Fin 2048) (k : Fin 128) :
    iblk m c 1 t (ix2 q k) = Cert.Loss.zs (m ((c.tc : Thread nD τ).loc main_arg0))
      ⟨2048 * (t.val % 8) + q.val, by have := q.isLt; omega⟩ k := by
  rw [← scaled_apply]
  show V m c main_v2 (((cfg0.win 1).blk t).view.emb (ix2 q k)) = V m c main_v2 _
  obtain ⟨e0, e1⟩ := idx_cols t
  refine congrArg (V m c main_v2) (funext fun a => Fin.ext ?_)
  match a with
  | ⟨0, _⟩ => show win0_1.index t (0 : Fin 2) * 2048 + 1 * q.val = 2048 * (t.val % 8) + q.val; omega
  | ⟨1, _⟩ => show win0_1.index t (1 : Fin 2) * 128 + 1 * k.val = k.val; omega

end Cert.KernelIdeal.Hand

end
-- ==== Proof.KILaunch.lean ====
/-
  The launch. The program is four host operations, the kernel region, five host operations; it is run as that list of
  segments. The region is entered from every unscoped buffer held whole; the scaled input, read by two windows, is
  split into two half shares for them and put together again at the exit; the result array comes out of the region
  at what the pipeline's write-backs made of it, and the five operations after the region run over that.
-/
import proofs.«105379_j28956669510249_1_alg».proof.Proof.KIDats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region leaves: the result array at what the write-backs made of it, every other buffer as it was. -/
def V2 (c : Dev nD) : Valuation τ sig (Elt F) :=
  Function.update (V1 m c) (Proc.devRef .tc main_v3) ((dats m 0 c).arrAt 2 cfg0.N)

theorem V2_v3 (c : Dev nD) : V2 m c (Proc.devRef .tc main_v3) = (dats m 0 c).arrAt 2 cfg0.N := by
  unfold V2; exact Function.update_self ..

theorem V2_of_ne (c : Dev nD) (b : DevRef τ sig) (hb : b ≠ Proc.devRef .tc main_v3) : V2 m c b = V1 m c b := by
  unfold V2; exact Function.update_of_ne hb ..

/-! ## The buffers the region takes, one by one -/

/-- The two arrays behind the three windows, each whole. -/
theorem arrBufs_two (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v3) ↦{fullShare} W main_v3)) := by
  unfold Pipeline.arrBufs
  exact bigSep_eq_bigSepL_of_eq [main_v2, main_v3] (by decide) (by decide) _

/-- The three windows' arrays as the proof data hold them: the scaled input twice, at the two halves of its full
    share, and the result at the full share. -/
theorem arrays_three (c : Dev nD) (G : (w : Fin cfg0.W) → Buf (Elt F) ((cfg0.win w).arr.view.loc (c : Thread nD τ))) :
    ((dats m 0 c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W0]
  rw [(arr_whole0 0).set_eq_univ, (arr_whole0 2).set_eq_univ]
  rw [show (dats m 0 c).share 0 = fullShare.left from (if_neg (by decide)).trans (q0 m c),
    show (dats m 0 c).share 1 = fullShare.right from (if_neg (by decide)).trans (q1 m c),
    show (dats m 0 c).share 2 = fullShare from if_pos (by decide)]

/-! ## What no operation writes -/

/-- The input array is written by none of the four operations before the region, -/
theorem arg0_kept0 (W : Valuation τ sig (Elt F)) :
    StableHlo.after hostOps0 W (Proc.devRef .tc main_arg0) = W (Proc.devRef .tc main_arg0) :=
  StableHlo.after_of_forall_not_mem hostOps0 W (by
    intro op hop
    simp only [hostOps0, List.mem_cons, List.mem_nil_iff, or_false] at hop
    rcases hop with rfl | rfl | rfl | rfl <;>
      simp only [StableHlo.nullary_writes, StableHlo.unary_writes, StableHlo.binary_writes, Finset.mem_singleton] <;>
      exact StableHlo.devRef_ne_of_ne (by decide))

/-- nor by any of the five after it. -/
theorem arg0_kept1 (W : Valuation τ sig (Elt F)) :
    StableHlo.after hostOps1 W (Proc.devRef .tc main_arg0) = W (Proc.devRef .tc main_arg0) :=
  StableHlo.after_of_forall_not_mem hostOps1 W (by
    intro op hop
    simp only [hostOps1, List.mem_cons, List.mem_nil_iff, or_false] at hop
    rcases hop with rfl | rfl | rfl | rfl | rfl <;>
      simp only [StableHlo.nullary_writes, StableHlo.reshape_writes, StableHlo.binary_writes, Finset.mem_singleton] <;>
      exact StableHlo.devRef_ne_of_ne (by decide))

/-- So it ends as launched. -/
theorem arg0_end (c : Dev nD) :
    StableHlo.after hostOps1 (V2 m c) (Proc.devRef .tc main_arg0) = m ((c : Thread nD τ).loc main_arg0) := by
  rw [arg0_kept1, V2_of_ne m c _ (StableHlo.devRef_ne_of_ne (by decide))]
  exact arg0_kept0 (V₀ m c)

/-! ## The segments -/

/-- No semaphore pair is given a level, -/
abbrev noPairs : GSem nD τ sig → Finset Unit := fun _ => ∅
/-- so no level is read. -/
abbrev noLevel : GSem nD τ sig → Unit → ℕ := fun _ _ => 0
/-- No pipeline has a prefetched table. -/
abbrev noTables : (p : Fin 1) → (pcfgs (F := F) p).Adm := fun p => (cfgs p).toPCfg_adm

/-- What rides beside the buffers through every segment: the core owes nothing. -/
abbrev owesNone (c : Dev nD) : sProp 𝕄 := iprop(∃ W, owes (c : Thread nD τ) (0 : CellTallies nD τ sig Unit) W)

/-- The four operations before the region, over the unscoped buffers at their launch contents. -/
def segBefore : Pipeline.HostSeg (Name := ℕ) (U := UR sig nD τ) (pcfgs (F := F)) defs₀ Variants.none noPairs noLevel :=
  Pipeline.HostSeg.ofOps _ _ _ _ _ (Pipeline.ucRefs τ sig) hostOps0
    (fun op h => Pipeline.sub_ucRefs op ((List.forall_iff_forall_mem.mp hostOps0_sub) op h))
    (by
      intro op hop
      simp only [hostOps0, List.mem_cons, List.mem_nil_iff, or_false] at hop
      rcases hop with rfl | rfl | rfl | rfl <;> rfl)
    (V₀ m) owesNone

/-- The five operations after the region, over the unscoped buffers as the region left them. -/
def segAfter : Pipeline.HostSeg (Name := ℕ) (U := UR sig nD τ) (pcfgs (F := F)) defs₀ Variants.none noPairs noLevel :=
  Pipeline.HostSeg.ofOps _ _ _ _ _ (Pipeline.ucRefs τ sig) hostOps1
    (fun op h => Pipeline.sub_ucRefs op ((List.forall_iff_forall_mem.mp hostOps1_sub) op h))
    (by
      intro op hop
      simp only [hostOps1, List.mem_cons, List.mem_nil_iff, or_false] at hop
      rcases hop with rfl | rfl | rfl | rfl | rfl <;> rfl)
    (V2 m) owesNone

/-! ## The region -/

/-- The unscoped buffers that are no window's array are the same before and after the region: only the result array
    changes, and it is a window's. -/
theorem rest_V2 (c : Dev nD) :
    (Pipeline.unscopedRest (Ix := Unit) (Name := ℕ) (U := UR sig nD τ) (Lvl := ℕ) spec0 c (fun b => V2 m c (Proc.devRef .tc b)) : sProp 𝕄)
      = Pipeline.unscopedRest spec0 c (V m c) := by
  unfold Pipeline.unscopedRest
  refine bigSep_congr fun b hb => ?_
  have hne : b ≠ main_v3 := fun e =>
    (Finset.mem_sdiff.mp hb).2 (Finset.mem_image.mpr ⟨2, Finset.mem_univ _, e ▸ rfl⟩)
  beta_reduce
  rw [V2_of_ne m c _ (StableHlo.devRef_ne_of_ne hne)]

/-- The unscoped buffers held at a valuation are the two arrays and the rest. -/
theorem held_split (c : Dev nD) (W : Valuation τ sig (Elt F)) :
    (StableHlo.held (c : Thread nD τ) (Pipeline.ucRefs τ sig) W : sProp 𝕄)
      = iprop(((((c : Thread nD τ).loc main_v2) ↦{fullShare} W (Proc.devRef .tc main_v2)) ∗ (((c : Thread nD τ).loc main_v3) ↦{fullShare} W (Proc.devRef .tc main_v3)))
          ∗ Pipeline.unscopedRest spec0 c (fun b => W (Proc.devRef .tc b))) := by
  rw [← Pipeline.unscopedBufs_held c W, Pipeline.unscopedBufs_split₀ cfgs 0 winFacts₀0.arr_unscoped c, arrBufs_two]

/-- THE REGION. It is entered from every unscoped buffer held whole after the four operations: the scaled input's
    full share is cut into its two halves for windows 0 and 1, the result array goes to window 2, the nine other
    buffers pass by. The invariant starts as the scratch column at anything and ends as the scratch column at the
    last running sum. At the exit the input windows hand back the two halves at the contents they were given, which
    join again, and the result array comes back at what the write-backs made of it. -/
def region0 : Pipeline.RegionSeg (pcfgs (F := F)) noTables (dats m) () defs₀ Variants.none noPairs noLevel 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ noPairs noLevel 0 fun _ _ => rfl
  pre c := iprop(StableHlo.held (c : Thread nD τ) (Pipeline.ucRefs τ sig) (V1 m c) ∗ owesNone c)
  post c := iprop(StableHlo.held (c : Thread nD τ) (Pipeline.ucRefs τ sig) (V2 m c) ∗ owesNone c)
  X c := iprop(emp)
  Y c := iprop(emp)
  Z c := Pipeline.unscopedRest spec0 c (V m c)
  hentry c := by
    rw [held_split, arrays_three]
    iintro ⟨⟨⟨⟨H2, H3⟩, HZ⟩, HO⟩, -, -⟩
    ihave H2' := (pointsTo_share (PosShare.mem_left_op_right fullShare)).1 $$ H2
    icases H2' with ⟨H2l, H2r⟩
    imodintro
    isplitl [H2l H2r H3]
    · isplitl [H2l]; · iexact H2l
      isplitl [H2r]; · iexact H2r
      iexact H3
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [Phi_zero]
    iintro ⟨-, -, Hr⟩
    iexact Hr
  hout c := by
    rw [Phi_last, Pipeline.ownSems0_none, scopedRest_scM]
    iintro H
    isplitr; · iempintro
    isplitr; · iempintro
    iexists _; iexact H
  hexit c := by
    rw [held_split, rest_V2, arrays_three, V2_v3, V2_of_ne m c _ (StableHlo.devRef_ne_of_ne (show main_v2 ≠ main_v3 by decide)),
      (dats m 0 c).arrAt_in 0 rfl, (dats m 0 c).arrAt_in 1 rfl, A_eq, A_eq]
    iintro ⟨⟨H2l, H2r, H3⟩, HO, -, HZ⟩
    ihave H2 := (pointsTo_share (PosShare.mem_left_op_right fullShare)).2 $$ [H2l H2r]
    · isplitl [H2l] <;> iassumption
    imodintro
    isplitr [HO]
    · isplitr [HZ]
      · isplitl [H2]; · iexact H2
        iexact H3
      iexact HZ
    · unfold Pipeline.Dat.owesAt Pipeline.owesWithin
      icases HO with ⟨%W, -, HO⟩; iexists W; iexact HO

/-! ## The launch -/

/-- The launch element: the rounds state of the staging cells and of the pipeline's transfers, nothing else. -/
def launchElt : UR sig nD τ := initOf (Pipeline.cells cfgs cellOf_inj) (Pipeline.launchToks cfgs cellOf_inj)

/-- @main as its three segments. -/
abbrev mainSegs : List (Pipeline.Seg (pcfgs (F := F)) noTables (dats m) () defs₀ Variants.none noPairs noLevel) :=
  [.host (segBefore m), .region (region0 m), .host (segAfter m)]

/-- THE RUN: every weakly fair execution of the program terminates, the input array ends as launched and the result
    scalar ends at what the five operations after the region make of the region's result array. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v6) = StableHlo.after hostOps1 (V2 m c) (Proc.devRef .tc main_v6)) :=
  Pipeline.θ_run_regions_kit (pcfgs (F := F)) noTables (dats m) () cellOf_inj (emb₁ : Emb (UR sig nD τ) 𝕄) defs₀ Variants.none noPairs noLevel m ρ main (mainSegs m)
    (fun c Q => by rw [main_segs noTables (dats m) () Variants.none noPairs noLevel (segBefore m) (segAfter m) (region0 m) rfl rfl c])
    (by simp only [Pipeline.Seg.pipes_host, Pipeline.Seg.pipes_region, Pipeline.Seg.pipes_nil]; decide)
    (O₀ := 0) (hL := fun _ _ => rfl) (G := fun _ => iprop(emp)) (u₀ := launchElt)
    (hu₀ := by
      unfold launchElt
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ owesNone c))
    (Tₙ := fun c => StableHlo.held (c : Thread nD τ) (Pipeline.ucRefs τ sig) (StableHlo.after hostOps1 (V2 m c)))
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_arg0) = m ((c.tc : Thread nD τ).loc main_arg0)
      ∧ s.mem ((c.tc : Thread nD τ).loc main_v6) = StableHlo.after hostOps1 (V2 m c) (Proc.devRef .tc main_v6))
    (hfin := fun c s' => by
      unfold StableHlo.held
      iintro ⟨Hh, HSI⟩
      ihave Hr := (pointsTo_read_all (Pipeline.ucRefs τ sig) (fun b => ((c : Thread nD τ).1, b))
        (fun b => StableHlo.after hostOps1 (V2 m c) b) s') $$ [Hh HSI]
      · isplitl [Hh]
        · iexact Hh
        · iexact HSI
      icases Hr with ⟨%h, HSI⟩
      imodintro
      isplitr; swap; (· iexact HSI)
      ipureintro
      have hmem : ∀ b : Ref sig .tc, b.isScoped = false → Proc.devRef (τ := τ) .tc b ∈ Pipeline.ucRefs τ sig := fun b hb =>
        Finset.mem_filter.mpr ⟨StableHlo.devRef_mem_tcRefs b, by simpa using hb⟩
      exact ⟨(h _ (hmem main_arg0 rfl)).trans (arg0_end m c), h _ (hmem main_v6 rfl)⟩)
    (hQ := fun _ h => h)

end Cert.KernelIdeal.Hand

end
-- ==== Proof.KIValue.lean ====
/-
  The kernel's value on the extended reals. By induction over the column tiles the scratch column after point t holds,
  at row p, the kernel's running sum for row 1024 (t / 8) + p of the input after column tiles 0 .. t % 8. The result
  window is written back after each row tile's last column tile, so the result array ends holding every row's loss,
  and the five operations after the region take their mean.
-/
import proofs.«105379_j28956669510249_1_alg».proof.Proof.KIPay
import proofs.«105379_j28956669510249_1_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- One column tile's share, from the two blocks' entries. -/
private theorem tileSum_of_rows (z : Cert.Loss.Z) (x0 : Vec Ideal S1024x128 .bf16) (x1 : Vec Ideal S2048x128 .bf16) (p : Fin 1024)
    (r : Fin 16384) (j : Fin 8)
    (h0 : ∀ k : Fin 128, x0 (ix2 p k) = Cert.Loss.zs z r k)
    (h1 : ∀ (q : Fin 2048) (k : Fin 128), x1 (ix2 q k)
      = Cert.Loss.zs z ⟨2048 * j.val + q.val, by have := j.isLt; have := q.isLt; omega⟩ k) :
    (∑ q : Fin 2048, Ideal.exp (∑ k : Fin 128, x0 (ix2 p k) * x1 (ix2 q k))) = Cert.Loss.tileSum z r j := by
  unfold Cert.Loss.tileSum Cert.Loss.sim
  refine Finset.sum_congr rfl fun q _ => ?_
  refine congrArg Ideal.exp ?_
  refine Finset.sum_congr rfl fun k _ => ?_
  rw [h0, h1]

/-- The same at point t's two blocks: row r = 1024 (t / 8) + p against column tile j = t % 8. -/
private theorem pay2_at_point (c : Dev nD) (t : Fin cfg0.N) (p : Fin 1024) (r : Fin 16384) (hr : r.val = 1024 * (t.val / 8) + p.val)
    (j : Fin 8) (hj : j.val = t.val % 8) (s : Vec Ideal S1024x1 .f32) :
    k0_pay2 (F := Ideal) (iblk m c 0 t) (iblk m c 1 t) s (ix2 p 0)
      = s (ix2 p 0) + Cert.Loss.tileSum (m ((c.tc : Thread nD τ).loc main_arg0)) r j := by
  refine (pay2_apply _ _ s p).trans (congrArg (s (ix2 p 0) + ·) ?_)
  refine tileSum_of_rows _ _ _ p r j (fun k => ?_) (fun q k => ?_)
  · refine (iblk0_apply m c t p k).trans ?_
    exact congrArg (fun r => Cert.Loss.zs _ r k) (Fin.ext hr.symm)
  · refine (iblk1_apply m c t q k).trans ?_
    exact congrArg (fun r => Cert.Loss.zs _ r k) (Fin.ext (by simp only [hj]))

/-- The running sum at point n, row p, for any name r of the input row 1024 (n / 8) + p: by induction on the point. -/
private theorem accAt_row (c : Dev nD) : ∀ (n : ℕ) (hn : n < cfg0.N) (p : Fin 1024) (r : Fin 16384), r.val = 1024 * (n / 8) + p.val →
    accAt m c n hn (ix2 p 0) = Cert.Loss.accK (m ((c.tc : Thread nD τ).loc main_arg0)) r (n % 8) := by
  intro n
  induction n using Nat.strong_induction_on with
  | _ n ih =>
    intro hn p r hr
    by_cases h : n % 8 = 0
    · rw [show accAt m c n hn = _ from accAt_first m c ⟨n, hn⟩ h, h]
      refine (pay2_at_point m c ⟨n, hn⟩ p r hr 0 h.symm _).trans ?_
      rw [pay1_apply]
      rfl
    · rw [show accAt m c n hn = _ from accAt_next m c ⟨n, hn⟩ h]
      obtain ⟨j, hj⟩ : ∃ j, n % 8 = j + 1 := ⟨n % 8 - 1, by omega⟩
      have hj7 : min (j + 1) 7 = n % 8 := by omega
      refine (pay2_at_point m c ⟨n, hn⟩ p r hr ⟨min (j + 1) 7, by omega⟩ hj7 _).trans ?_
      have := ih (n - 1) (by omega) (by omega) p r (by omega)
      rw [show (n - 1) % 8 = j by omega] at this
      rw [hj]
      exact congrArg (· + _) this

/-- THE RUNNING SUM, read: after point t, row p of the scratch column is the kernel's running sum for input row
    1024 (t / 8) + p after column tiles 0 .. t % 8. -/
theorem accAt_apply (c : Dev nD) (t : Fin cfg0.N) (p : Fin 1024) :
    accAt m c t.val t.isLt (ix2 p 0) = Cert.Loss.accK (m ((c.tc : Thread nD τ).loc main_arg0))
      ⟨1024 * (t.val / 8) + p.val, by have := t.isLt; have : cfg0.N = 128 := N_0; have := p.isLt; omega⟩ (t.val % 8) :=
  accAt_row m c t.val t.isLt p _ rfl

/-- The result column as one function of the input: row r's loss from its finished running sum. -/
private def lossCol (z : Cert.Loss.Z) : S16384x1.Idx → EReal := fun i =>
  Ideal.ofBits .f32 0x00000000#32 - Ideal.log (Cert.Loss.accK z (i 0) 7 * Ideal.ofBits .f32 0x38800000#32)

/-- The result window's block at point t is row tile t / 8, its one column. -/
private theorem resIdx : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What the body leaves in the result window's buffer at a row tile's last column tile, entry by entry. -/
private theorem pay3_accAt (c : Dev nD) (t : Fin cfg0.N) (h7 : t.val % 8 = 7) (y : S1024x1.Idx) (r : Fin 16384)
    (hr : r.val = 1024 * (t.val / 8) + (y 0).val) :
    k0_pay3 (F := Ideal) (accAt m c t.val t.isLt) y = Ideal.ofBits .f32 0x00000000#32
      - Ideal.log (Cert.Loss.accK (m ((c.tc : Thread nD τ).loc main_arg0)) r 7 * Ideal.ofBits .f32 0x38800000#32) := by
  obtain ⟨p, q, rfl⟩ : ∃ (p : Fin 1024) (q : Fin 1), y = ix2 p q := ⟨y 0, y 1, eq_ix2 y⟩
  obtain rfl : q = 0 := Fin.ext (by have := q.isLt; omega)
  rw [pay3_apply, accAt_row m c t.val t.isLt p r hr, h7]

/-- WHAT A WRITING POINT WRITES BACK is its block of the result column. -/
private theorem flushed_res (c : Dev nD) (t : Fin cfg0.N) (hf : (cfg0.win 2).flush t = true) :
    (dats m 0 c).flushed 2 t
      = ((cfg0.win 2).blk t).view.read (Elt Ideal) (lossCol (m ((c.tc : Thread nD τ).loc main_arg0))) := by
  have h7 := (flush0_2 t).mp hf
  obtain ⟨e0, e1⟩ := resIdx t
  have hN : cfg0.N = 128 := N_0
  funext j
  show (cfg0.win 2).cut (grid0.coords t) ((dats m 0 c).after 2 t) j = _
  rw [after2, View.read_apply]
  have hj : (j 0).val < 1024 := (j 0).isLt
  refine (pay3_accAt m c t h7 _ ⟨1024 * (t.val / 8) + (j 0).val, by have := t.isLt; omega⟩ rfl).trans ?_
  show _ = lossCol _ (((cfg0.win 2).blk t).view.emb j)
  unfold lossCol
  have e : (⟨1024 * (t.val / 8) + (j 0).val, by have := t.isLt; omega⟩ : Fin 16384) = ((cfg0.win 2).blk t).view.emb j 0 := by
    apply Fin.ext
    show 1024 * (t.val / 8) + (j 0).val = win0_2.index t (0 : Fin 2) * 1024 + 1 * (j 0).val
    rw [e0]; omega
  rw [e]

/-- An index of the result array is in point t's block iff each coordinate is in the block's range on its axis. -/
private theorem mem_blk_res (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v3).slice (win0_2.rect t)).set ↔ _
  rw [View.set_slice_whole, Rect.mem_set_unit]
  exact Iff.rfl

/-- THE RESULT ARRAY after the region: row r holds 0 - log (running sum after all eight tiles * 2^-14). -/
theorem result_array (c : Dev nD) (r : Fin 16384) :
    (dats m 0 c).arrAt 2 cfg0.N (ix2 r 0) = Ideal.ofBits .f32 0x00000000#32
      - Ideal.log (Cert.Loss.accK (m ((c.tc : Thread nD τ).loc main_arg0)) r 7 * Ideal.ofBits .f32 0x38800000#32) := by
  have hN : cfg0.N = 128 := N_0
  have hr : r.val < 16384 := r.isLt
  let t : Fin cfg0.N := ⟨8 * (r.val / 1024) + 7, by omega⟩
  have ht : t.val = 8 * (r.val / 1024) + 7 := rfl
  obtain ⟨e0, e1⟩ := resIdx t
  refine (dats m 0 c).arrAt_apply_of_mem 2 (lossCol (m ((c.tc : Thread nD τ).loc main_arg0)))
    (fun t hf => flushed_res m c t hf) cfg0.N t (ix2 r 0) t.isLt ((flush0_2 t).mpr (by omega)) ?_
  rw [mem_blk_res]
  intro a
  match a with
  | ⟨0, _⟩ =>
    show win0_2.index t (0 : Fin 2) * 1024 ≤ r.val ∧ r.val < win0_2.index t (0 : Fin 2) * 1024 + 1024
    rw [e0]; omega
  | ⟨1, _⟩ =>
    show win0_2.index t (1 : Fin 2) * 1 ≤ 0 ∧ 0 < win0_2.index t (1 : Fin 2) * 1 + 1
    rw [e1]; omega

/-- The result column reshaped to a vector, read at a row. -/
private theorem col_to_vec (x : S16384x1.Idx → EReal) (r : Fin 16384) :
    shapeCast S16384 x shapeCasts_S16384x1_S16384 (ix1 r) = x (ix2 r 0) := by
  refine shapeCast_apply x _ (ix1 r) (ix2 r 0) ?_
  rw [Shape.rowMajor_val_two, Shape.rowMajor_val_one]
  show r.val * 1 + 0 = r.val
  omega

/-- A vector's indices are its one coordinate's values. -/
private def vecIdx : S16384.Idx ≃ Fin 16384 where
  toFun j := j 0
  invFun r := ix1 r
  left_inv j := (eq_ix1 j).symm
  right_inv _ := rfl

/-- So a sum over a vector's indices is the sum over the rows. -/
private theorem sum_vec (f : S16384.Idx → EReal) : ∑ j, f j = ∑ r : Fin 16384, f (ix1 r) :=
  (Equiv.sum_comp vecIdx.symm f).symm

/-- THE KERNEL'S VALUE: the result scalar after the five operations that follow the region. -/
theorem kernel_value (c : Dev nD) :
    StableHlo.after (hostOps1 (F := Ideal)) (V2 m c) (Proc.devRef .tc main_v6)
      = fun _ => Cert.Loss.Gk (m ((c.tc : Thread nD τ).loc main_arg0)) := by
  dsimp only [hostOps1]
  after_results
  funext i
  rw [V2_v3]
  unfold Cert.Loss.Gk
  refine congrArg₂ Ideal.div ?_ rfl
  simp only [Host.reduceAdd, Ideal.hostReduceAdd_def]
  refine (Ideal.hostReduceAdd_total reducesTo_S16384_S_d0 (fun b => b.elim0) _ _ i).trans ?_
  refine congrArg₂ (· + ·) rfl ?_
  rw [sum_vec]
  refine Finset.sum_congr rfl fun r _ => ?_
  show shapeCast S16384 ((dats m 0 c).arrAt 2 cfg0.N) shapeCasts_S16384x1_S16384 (ix1 r) = _
  rw [col_to_vec, result_array]

end Cert.KernelIdeal.Hand

end
-- ==== Proof.Reference.lean ====
/-
  The reference's composed term is the specification's G: its matrix product of the scaled input with its transpose is
  the similarity, its row sums of exponentials the rows' sums, and the mean of  - log (sum / 16384) the result.
-/
import proofs.«105379_j28956669510249_1_alg».proof.Proof.Gen.ReferenceIdeal.Read
import proofs.«105379_j28956669510249_1_alg».proof.Proof.LossSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The scaled input at (r, k) is the specification's scaled row entry: the input divided by the temperature word. -/
theorem v1_at (z : (⟨S16384x128, .f32⟩ : BufTy).Contents (Elt Ideal)) (r : Fin 16384) (k : Fin 128) :
    val_main_v1 (F := Ideal) z (ix2 r k) = Cert.Loss.zs z r k := by
  rw [val_main_v1_apply, val_main_v0_apply, val_main_cst_apply]
  rfl

/-- The left operand of the product at (r, c), term k, is read at (r, k). -/
theorem lidx_at (r c : Fin 16384) (k : Fin 128) : lidx_main_v3 (ix2 r c) k = ix2 r k :=
  funext fun a => Fin.ext (by match a with | ⟨0, _⟩ => rfl | ⟨1, _⟩ => rfl)

/-- The right operand is the transpose: at (r, c), term k, it reads the scaled input at (c, k). -/
theorem ridx_at (r c : Fin 16384) (k : Fin 128) : idx_main_v2 (ridx_main_v3 (ix2 r c) k) = ix2 c k :=
  funext fun a => Fin.ext (by match a with | ⟨0, _⟩ => rfl | ⟨1, _⟩ => rfl)

/-- The matrix product at (r, c) is the similarity of rows r and c. -/
theorem v3_at (z : (⟨S16384x128, .f32⟩ : BufTy).Contents (Elt Ideal)) (r c : Fin 16384) :
    val_main_v3 (F := Ideal) z (ix2 r c) = Cert.Loss.sim z r c := by
  rw [val_main_v3_apply]
  unfold Cert.Loss.sim
  refine Finset.sum_congr rfl fun k _ => ?_
  rw [val_main_v2_apply, lidx_at, ridx_at, v1_at, v1_at]

/-- The row reduction reads the exponentials of row r at (r, c). -/
theorem idx5_at (r c : Fin 16384) : idx_main_v5 (ix1 r) c = ix2 r c :=
  funext fun a => Fin.ext (by match a with | ⟨0, _⟩ => rfl | ⟨1, _⟩ => rfl)

/-- Row r's reduction is the zero word plus the row's sum of exponentials. -/
theorem v5_at (z : (⟨S16384x128, .f32⟩ : BufTy).Contents (Elt Ideal)) (r : Fin 16384) :
    val_main_v5 (F := Ideal) z (ix1 r) = Ideal.ofBits .f32 0x00000000#32 + Cert.Loss.rowSum z r := by
  rw [val_main_v5_apply, val_main_cst_0_apply]
  unfold Cert.Loss.rowSum
  refine congrArg (_ + ·) (Finset.sum_congr rfl fun c _ => ?_)
  rw [val_main_v4_apply, idx5_at, v3_at]
  rfl

/-- Row r's loss:  - log (row sum / 16384). -/
theorem v9_at (z : (⟨S16384x128, .f32⟩ : BufTy).Contents (Elt Ideal)) (r : Fin 16384) :
    val_main_v9 (F := Ideal) z (ix1 r)
      = -(Ideal.log (Ideal.div (Ideal.ofBits .f32 0x00000000#32 + Cert.Loss.rowSum z r) (Ideal.ofBits .f32 0x46800000#32))) := by
  rw [val_main_v9_apply, val_main_v8_apply, val_main_v7_apply, val_main_v6_apply, val_main_cst_1_apply, v5_at]
  rfl

/-- A rank-1 index of extent 16384 is its one coordinate. -/
def rowEquiv : Fin 16384 ≃ S16384.Idx where
  toFun r := ix1 r
  invFun j := j 0
  left_inv _ := rfl
  right_inv j := (eq_ix1 j).symm

/-- The reference's last stage, as a function of the input array, is the specification's value. -/
theorem ref_value (z : (⟨S16384x128, .f32⟩ : BufTy).Contents (Elt Ideal)) :
    val_main_v11 (F := Ideal) z = fun _ => Cert.Loss.G z := by
  funext i
  rw [val_main_v11_apply, val_main_v10_apply, val_main_cst_3_apply, val_main_cst_2_apply]
  unfold Cert.Loss.G
  have hs : ∑ j : S16384.Idx, val_main_v9 (F := Ideal) z j
      = ∑ r : Fin 16384, -(Ideal.log (Ideal.div (Ideal.ofBits .f32 0x00000000#32 + Cert.Loss.rowSum z r) (Ideal.ofBits .f32 0x46800000#32))) := by
    rw [← Equiv.sum_comp rowEquiv]
    exact Finset.sum_congr rfl fun r _ => v9_at z r
  rw [hs]
  rfl

end Cert.ReferenceIdeal.RefValue

end
-- ==== Proof.lean ====
/-
  The certificate. Both programs compute the mean over the 16384 rows of  - log ((sum over all columns c of
  exp (zs r . zs c)) / 16384), zs the input divided by the temperature. The kernel walks each row tile's columns in
  eight tiles, keeping a running sum of exponentials in a scratch column; the reference forms the whole 16384 x 16384
  matrix. On the extended reals the running sum is the whole sum (addition is commutative and associative), the
  kernel's product with 2^-14 is the reference's division by 16384, and 0 - x = -x: Proof/LossSpec.lean. The kernel's
  run (its frame at both instances, and its value at the ideal one) is proved against the pipeline library's launch
  for a program given as a list of segments, the scaled input shared in two halves between the two windows that read
  it: Proof/KILaunch.lean, Proof/KLaunch.lean over the body's triples and the proof data; Proof/KIValue.lean reads
  the value; Proof/Reference.lean reads the reference's generated run.
-/
import proofs.«105379_j28956669510249_1_alg».proof.Defs
import proofs.«105379_j28956669510249_1_alg».proof.Proof.Gen.Kernel
import proofs.«105379_j28956669510249_1_alg».proof.Proof.Gen.KernelIdeal
import proofs.«105379_j28956669510249_1_alg».proof.Proof.Gen.ReferenceIdeal
import proofs.«105379_j28956669510249_1_alg».proof.Proof.Gen.Pre_finite_inputs
import proofs.«105379_j28956669510249_1_alg».proof.Proof.KLaunch
import proofs.«105379_j28956669510249_1_alg».proof.Proof.KIValue
import proofs.«105379_j28956669510249_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs to the end and leaves its input as launched. -/
theorem frame_k : Cert.frame_Kernel := fun m ρ _ =>
  (θ_run Cert.Kernel.defs _ _).mono (fun _ h c => (h c).1) (Cert.Kernel.Hand.run_main (F := Bits) m ρ)

/-- So does the idealized kernel. -/
theorem frame_ki : Cert.frame_KernelIdeal := fun m ρ _ =>
  (θ_run Cert.KernelIdeal.defs _ _).mono (fun _ h c => (h c).1) (Cert.KernelIdeal.Hand.run_main (F := Ideal) m ρ)

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification's value of the input. -/
theorem algebraic : Cert.algebraic_KernelIdeal_ReferenceIdeal := by
  intro m ρ m' ρ' _ hagree
  refine ⟨fun c => fun _ => Cert.Loss.G (m ((c.tc : Thread Cert.KernelIdeal.nD Cert.KernelIdeal.τ).loc Cert.KernelIdeal.main_arg0)), ?_, ?_⟩
  · refine (θ_run Cert.KernelIdeal.defs _ _).mono (fun _ h c => ⟨?_, (h c).1⟩) (Cert.KernelIdeal.Hand.run_main (F := Ideal) m ρ)
    rw [(h c).2, Cert.KernelIdeal.Hand.kernel_value, Cert.Loss.Gk_eq_G]; try rfl
  · refine (θ_run Cert.ReferenceIdeal.defs _ _).mono (fun _ h c => ⟨?_, (h c).2⟩) (Cert.ReferenceIdeal.Value.run (F := Ideal) m' ρ')
    rw [(h c).1, Cert.ReferenceIdeal.Read.val_main_v11_eq, Cert.ReferenceIdeal.RefValue.ref_value, hagree c]; try rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
